-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : FVec F S512x256 .f32) (main_arg2 : FVec F S256 .f32) (main_arg3 : FVec F S256 .f32) (main_arg4 : FVec F S256x64 .f32) (main_arg5 : FVec F S64 .f32) (main_arg6 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x512 : Shape := ⟨2, ![100000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S1x256 : Shape := ⟨2, ![1, 256]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S2000x256 : Shape := ⟨2, ![2000, 256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 99
  | .vmem => 9
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S1x256, .f32⟩
  | .hbm, ⟨8, _⟩ => ⟨S1x256, .f32⟩
  | .hbm, ⟨9, _⟩ => ⟨S1x64, .f32⟩
  | .hbm, ⟨10, _⟩ => ⟨S100000x64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S256x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S2000x512_S512x256_S2000x256_1_0_0_1_n_n_wf : DotDims.WF S2000x512 S512x256 S2000x256 [1] [0] [0] [1] [] []
  dot_S2000x256_S256x64_S2000x64_1_0_0_1_n_n_wf : DotDims.WF S2000x256 S256x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S100000x256 : Shape := ⟨2, ![100000, 256]⟩
abbrev S1x256 : Shape := ⟨2, ![1, 256]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S100000x256, .f32⟩
  | .hbm, ⟨8, _⟩ => ⟨S1x256, .f32⟩
  | .hbm, ⟨9, _⟩ => ⟨S100000x256, .f32⟩
  | .hbm, ⟨10, _⟩ => ⟨S100000x256, .f32⟩
  | .hbm, ⟨11, _⟩ => ⟨S_, .f32⟩
  | .hbm, ⟨12, _⟩ => ⟨S100000x256, .f32⟩
  | .hbm, ⟨13, _⟩ => ⟨S100000x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S100000x256, .f32⟩
  | .hbm, ⟨24, _⟩ => ⟨S100000x256, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000, .i32⟩
  | .hbm, ⟨30, _⟩ => ⟨S1x1600000, .i32⟩
  | .hbm, ⟨31, _⟩ => ⟨S1600000, .i32⟩
  | .hbm, ⟨32, _⟩ => ⟨S1700000, .i32⟩
  | .hbm, ⟨33, _⟩ => ⟨S1x1600000, .i32⟩
  | .hbm, ⟨34, _⟩ => ⟨S1600000, .i32⟩
  | .hbm, ⟨35, _⟩ => ⟨S1700000, .i32⟩
  | .hbm, ⟨36, _⟩ => ⟨S_, .f32⟩
  | .hbm, ⟨37, _⟩ => ⟨S1700000, .f32⟩
  | .hbm, ⟨38, _⟩ => ⟨S_, .f32⟩
  | .hbm, ⟨39, _⟩ => ⟨S100000, .f32⟩
  | .hbm, ⟨40, _⟩ => ⟨S1700000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .i1⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000, .f32⟩
  | .hbm, ⟨70, _⟩ => ⟨S1700000, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S1700000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_18 : Ref sig .tc := ⟨.hbm, 110, rfl⟩
abbrev main_v76 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S256 : S_.BroadcastsInDim S256 (![] : Fin 0 → Fin S256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x512_S512x256_S100000x256_1_0_0_1_n_n_wf : DotDims.WF S100000x512 S512x256 S100000x256 [1] [0] [0] [1] [] []
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.FrameK.lean ====
/-
  The frame of the program: it runs to the end, nothing faults, and the seven argument arrays end as they were launched.
  The program is three reshapes of the bias and retain-probability vectors into rows, one pipelined region of fifty
  grid points, and eighty-eight host operations after it.  At grid point t the region stages rows 2000·t … 2000·t+1999
  of the input (window 0), the two weight matrices and the three rows whole (windows 1 to 5, fetched once), and writes
  back rows 2000·t … 2000·t+1999 of the result (window 6).  The body loads the six input blocks whole, computes one
  value of the output block's shape from them, and stores it over the whole output block; so after the body the output
  buffer holds that value, and every input buffer holds its block.  The host operations after the region write only
  their own result buffers, none of which is an array of the pipeline or an argument.
-/
import proofs.«129289_j4303557231208_1_alg».proof.Proof.Gen.Kernel.Launch
import proofs.«129289_j4303557231208_1_alg».proof.Proof.Gen.Kernel.Skeleton
import proofs.«129289_j4303557231208_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in the three stretches the program is printed in. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 4000000 in
/-- The program is the reshapes, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Decides that a given buffer is the result of no operation of a literal list: each operation writes its own result
    buffer only, and two references are compared by their numbers. -/
local macro "no_writer" : tactic => `(tactic| (
  simp only [tailOps, hostOps0, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer none of the later operations writes holds after them what it held before. -/
theorem tail_keeps_of {b : Ref sig .tc}
    (h : (List.flatten (tailOps (F := F))).Forall fun op => Proc.devRef .tc b ∉ op.writes) (W : Valuation τ sig (Elt F)) :
    StableHlo.after (List.flatten tailOps) W (Proc.devRef .tc b) = W (Proc.devRef .tc b) :=
  StableHlo.after_of_forall_not_mem _ _ (List.forall_iff_forall_mem.mp h)

set_option maxHeartbeats 4000000 in
theorem tail_nw_arg0 : (List.flatten (tailOps (F := F))).Forall fun op => Proc.devRef .tc main_arg0 ∉ op.writes := by no_writer
set_option maxHeartbeats 4000000 in
theorem tail_nw_arg1 : (List.flatten (tailOps (F := F))).Forall fun op => Proc.devRef .tc main_arg1 ∉ op.writes := by no_writer
set_option maxHeartbeats 4000000 in
theorem tail_nw_arg2 : (List.flatten (tailOps (F := F))).Forall fun op => Proc.devRef .tc main_arg2 ∉ op.writes := by no_writer
set_option maxHeartbeats 4000000 in
theorem tail_nw_arg3 : (List.flatten (tailOps (F := F))).Forall fun op => Proc.devRef .tc main_arg3 ∉ op.writes := by no_writer
set_option maxHeartbeats 4000000 in
theorem tail_nw_arg4 : (List.flatten (tailOps (F := F))).Forall fun op => Proc.devRef .tc main_arg4 ∉ op.writes := by no_writer
set_option maxHeartbeats 4000000 in
theorem tail_nw_arg5 : (List.flatten (tailOps (F := F))).Forall fun op => Proc.devRef .tc main_arg5 ∉ op.writes := by no_writer
set_option maxHeartbeats 4000000 in
theorem tail_nw_arg6 : (List.flatten (tailOps (F := F))).Forall fun op => Proc.devRef .tc main_arg6 ∉ op.writes := by no_writer
set_option maxHeartbeats 4000000 in
theorem tail_nw_v0 : (List.flatten (tailOps (F := F))).Forall fun op => Proc.devRef .tc main_v0 ∉ op.writes := by no_writer
set_option maxHeartbeats 4000000 in
theorem tail_nw_v1 : (List.flatten (tailOps (F := F))).Forall fun op => Proc.devRef .tc main_v1 ∉ op.writes := by no_writer
set_option maxHeartbeats 4000000 in
theorem tail_nw_v2 : (List.flatten (tailOps (F := F))).Forall fun op => Proc.devRef .tc main_v2 ∉ op.writes := by no_writer
set_option maxHeartbeats 4000000 in
theorem tail_nw_v3 : (List.flatten (tailOps (F := F))).Forall fun op => Proc.devRef .tc main_v3 ∉ op.writes := by no_writer

/-- So none of them writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ List.flatten (tailOps (F := F)) := List.mem_flatten.mpr ⟨ops, hops, hop⟩
  fin_cases w
  · exact (List.forall_iff_forall_mem.mp tail_nw_arg0) op hmem
  · exact (List.forall_iff_forall_mem.mp tail_nw_arg1) op hmem
  · exact (List.forall_iff_forall_mem.mp tail_nw_v0) op hmem
  · exact (List.forall_iff_forall_mem.mp tail_nw_v1) op hmem
  · exact (List.forall_iff_forall_mem.mp tail_nw_arg4) op hmem
  · exact (List.forall_iff_forall_mem.mp tail_nw_v2) op hmem
  · exact (List.forall_iff_forall_mem.mp tail_nw_v3) op hmem

/-! ## The arguments when the region is entered, and at the end -/

theorem V_main_arg0 (c : Dev nD) : V m c main_arg0 = m ((c : Thread nD τ).loc main_arg0) :=
  StableHlo.after_of_forall_not_mem (b := Proc.devRef .tc main_arg0) _ _ (List.forall_iff_forall_mem.mp (by no_writer))
theorem V_main_arg1 (c : Dev nD) : V m c main_arg1 = m ((c : Thread nD τ).loc main_arg1) :=
  StableHlo.after_of_forall_not_mem (b := Proc.devRef .tc main_arg1) _ _ (List.forall_iff_forall_mem.mp (by no_writer))
theorem V_main_arg2 (c : Dev nD) : V m c main_arg2 = m ((c : Thread nD τ).loc main_arg2) :=
  StableHlo.after_of_forall_not_mem (b := Proc.devRef .tc main_arg2) _ _ (List.forall_iff_forall_mem.mp (by no_writer))
theorem V_main_arg3 (c : Dev nD) : V m c main_arg3 = m ((c : Thread nD τ).loc main_arg3) :=
  StableHlo.after_of_forall_not_mem (b := Proc.devRef .tc main_arg3) _ _ (List.forall_iff_forall_mem.mp (by no_writer))
theorem V_main_arg4 (c : Dev nD) : V m c main_arg4 = m ((c : Thread nD τ).loc main_arg4) :=
  StableHlo.after_of_forall_not_mem (b := Proc.devRef .tc main_arg4) _ _ (List.forall_iff_forall_mem.mp (by no_writer))
theorem V_main_arg5 (c : Dev nD) : V m c main_arg5 = m ((c : Thread nD τ).loc main_arg5) :=
  StableHlo.after_of_forall_not_mem (b := Proc.devRef .tc main_arg5) _ _ (List.forall_iff_forall_mem.mp (by no_writer))
theorem V_main_arg6 (c : Dev nD) : V m c main_arg6 = m ((c : Thread nD τ).loc main_arg6) :=
  StableHlo.after_of_forall_not_mem (b := Proc.devRef .tc main_arg6) _ _ (List.forall_iff_forall_mem.mp (by no_writer))

/-- An argument that is no array of the pipeline ends as launched: the later operations do not write it, the region's
    arrays are other buffers, and the reshapes before the region do not write it. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [tail_keeps_of tail_nw_arg2,
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [tail_keeps_of tail_nw_arg3,
    Pipeline.withArrays_of_ne _ c (V0 m c) _ main_arg3 (by exact (by decide : ∀ w, Pipeline.arrRef spec0 w ≠ main_arg3))]
  exact V_main_arg3 m c
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [tail_keeps_of tail_nw_arg5,
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [tail_keeps_of tail_nw_arg6,
    Pipeline.withArrays_of_ne _ c (V0 m c) _ main_arg6 (by exact (by decide : ∀ w, Pipeline.arrRef spec0 w ≠ main_arg6))]
  exact V_main_arg6 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, whether it was fetched there or not (where it
    was not, the block index has not moved since the fetch), for any proof data over the region-entry arrays whose body
    leaves input blocks in place.  One statement per input window: the window's block shape is read off its literal
    number. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the pipeline library's frame post — every array of the pipeline at what the proof data compute, every
    other unscoped buffer as the later operations leave it — the seven arguments end as launched: the staged ones
    (the input and the two weight matrices) are input arrays, which keep their region-entry contents; the other four
    are buffers nothing writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 4).trans (((dats 0 c).arrAt_in 4 rfl _).trans ((hA c 4).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## What the body leaves in the output buffer -/

abbrev rX : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rRow256 : Rect S1x256 := Rect.unit (s := S1x256) ![0, 0] S1x256.size inb_S1x256_S1x256_0_0
abbrev rW2 : Rect S256x64 := Rect.unit (s := S256x64) ![0, 0] S256x64.size inb_S256x64_S256x64_0_0
abbrev rRow64 : Rect S1x64 := Rect.unit (s := S1x64) ![0, 0] S1x64.size inb_S1x64_S1x64_0_0
abbrev rOut : Rect S2000x64 := Rect.unit (s := S2000x64) ![0, 0] S2000x64.size inb_S2000x64_S2000x64_0_0

/-- The output buffer after the body: its one store, over the whole block, of the body's value of the six input blocks
    loaded whole. -/
def outBlk (x0 : Vec F S2000x512 .f32) (x1 : Vec F S512x256 .f32) (x2 x3 : Vec F S1x256 .f32) (x4 : Vec F S256x64 .f32)
    (x5 : Vec F S1x64 .f32) : Vec F S2000x64 .f32 :=
  View.canon [⟨rOut, k0_pay1 (View.ld x0 rX) (View.ld x1 rW1) (View.ld x2 rRow256) (View.ld x3 rRow256) (View.ld x4 rW2) (View.ld x5 rRow64)⟩]

/-- The one store covers the buffer. -/
theorem coverOut (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

/-! ## The body's triple -/

set_option maxHeartbeats 4000000 in
/-- The body on whole staging buffers — the six inputs' at known contents, the output's at anything — runs to the end
    holding the inputs' as they were and the output's at `outBlk` of them. -/
theorem sound_kernel (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S256x64 .f32) (harg5 : arg5.IsWhole) (arg6 : Memref sig .tc .vmem S1x64 .f32) (harg6 : arg6.IsWhole)
    (arg7 : Memref sig .tc .vmem S2000x64 .f32) (harg7 : arg7.IsWhole)
    (x0 : Vec F S2000x512 .f32) (x1 : Vec F S512x256 .f32) (x2 x3 : Vec F S1x256 .f32) (x4 : Vec F S256x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-! ## The pipeline's proof data -/

/-- The arrays as the region finds them; after the body at grid point t each input's buffer at its block and the
    output's at `outBlk` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any grid point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, and every final state has every array of the pipeline at what
    the proof data compute and every other unscoped buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frame

end
-- ==== Proof.FrameKI.lean ====
/-
  The frame of the program: it runs to the end, nothing faults, and the seven argument arrays end as they were launched.
  The program is three reshapes of the bias and retain-probability vectors into rows, one pipelined region of fifty
  grid points, and eighty-eight host operations after it.  At grid point t the region stages rows 2000·t … 2000·t+1999
  of the input (window 0), the two weight matrices and the three rows whole (windows 1 to 5, fetched once), and writes
  back rows 2000·t … 2000·t+1999 of the result (window 6).  The body loads the six input blocks whole, computes one
  value of the output block's shape from them, and stores it over the whole output block; so after the body the output
  buffer holds that value, and every input buffer holds its block.  The host operations after the region write only
  their own result buffers, none of which is an array of the pipeline or an argument.
-/
import proofs.«129289_j4303557231208_1_alg».proof.Proof.Gen.KernelIdeal.Launch
import proofs.«129289_j4303557231208_1_alg».proof.Proof.Gen.KernelIdeal.Skeleton
import proofs.«129289_j4303557231208_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in the three stretches the program is printed in. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 4000000 in
/-- The program is the reshapes, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Decides that a given buffer is the result of no operation of a literal list: each operation writes its own result
    buffer only, and two references are compared by their numbers. -/
local macro "no_writer" : tactic => `(tactic| (
  simp only [tailOps, hostOps0, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer none of the later operations writes holds after them what it held before. -/
theorem tail_keeps_of {b : Ref sig .tc}
    (h : (List.flatten (tailOps (F := F))).Forall fun op => Proc.devRef .tc b ∉ op.writes) (W : Valuation τ sig (Elt F)) :
    StableHlo.after (List.flatten tailOps) W (Proc.devRef .tc b) = W (Proc.devRef .tc b) :=
  StableHlo.after_of_forall_not_mem _ _ (List.forall_iff_forall_mem.mp h)

set_option maxHeartbeats 4000000 in
theorem tail_nw_arg0 : (List.flatten (tailOps (F := F))).Forall fun op => Proc.devRef .tc main_arg0 ∉ op.writes := by no_writer
set_option maxHeartbeats 4000000 in
theorem tail_nw_arg1 : (List.flatten (tailOps (F := F))).Forall fun op => Proc.devRef .tc main_arg1 ∉ op.writes := by no_writer
set_option maxHeartbeats 4000000 in
theorem tail_nw_arg2 : (List.flatten (tailOps (F := F))).Forall fun op => Proc.devRef .tc main_arg2 ∉ op.writes := by no_writer
set_option maxHeartbeats 4000000 in
theorem tail_nw_arg3 : (List.flatten (tailOps (F := F))).Forall fun op => Proc.devRef .tc main_arg3 ∉ op.writes := by no_writer
set_option maxHeartbeats 4000000 in
theorem tail_nw_arg4 : (List.flatten (tailOps (F := F))).Forall fun op => Proc.devRef .tc main_arg4 ∉ op.writes := by no_writer
set_option maxHeartbeats 4000000 in
theorem tail_nw_arg5 : (List.flatten (tailOps (F := F))).Forall fun op => Proc.devRef .tc main_arg5 ∉ op.writes := by no_writer
set_option maxHeartbeats 4000000 in
theorem tail_nw_arg6 : (List.flatten (tailOps (F := F))).Forall fun op => Proc.devRef .tc main_arg6 ∉ op.writes := by no_writer
set_option maxHeartbeats 4000000 in
theorem tail_nw_v0 : (List.flatten (tailOps (F := F))).Forall fun op => Proc.devRef .tc main_v0 ∉ op.writes := by no_writer
set_option maxHeartbeats 4000000 in
theorem tail_nw_v1 : (List.flatten (tailOps (F := F))).Forall fun op => Proc.devRef .tc main_v1 ∉ op.writes := by no_writer
set_option maxHeartbeats 4000000 in
theorem tail_nw_v2 : (List.flatten (tailOps (F := F))).Forall fun op => Proc.devRef .tc main_v2 ∉ op.writes := by no_writer
set_option maxHeartbeats 4000000 in
theorem tail_nw_v3 : (List.flatten (tailOps (F := F))).Forall fun op => Proc.devRef .tc main_v3 ∉ op.writes := by no_writer

/-- So none of them writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ List.flatten (tailOps (F := F)) := List.mem_flatten.mpr ⟨ops, hops, hop⟩
  fin_cases w
  · exact (List.forall_iff_forall_mem.mp tail_nw_arg0) op hmem
  · exact (List.forall_iff_forall_mem.mp tail_nw_arg1) op hmem
  · exact (List.forall_iff_forall_mem.mp tail_nw_v0) op hmem
  · exact (List.forall_iff_forall_mem.mp tail_nw_v1) op hmem
  · exact (List.forall_iff_forall_mem.mp tail_nw_arg4) op hmem
  · exact (List.forall_iff_forall_mem.mp tail_nw_v2) op hmem
  · exact (List.forall_iff_forall_mem.mp tail_nw_v3) op hmem

/-! ## The arguments when the region is entered, and at the end -/

theorem V_main_arg0 (c : Dev nD) : V m c main_arg0 = m ((c : Thread nD τ).loc main_arg0) :=
  StableHlo.after_of_forall_not_mem (b := Proc.devRef .tc main_arg0) _ _ (List.forall_iff_forall_mem.mp (by no_writer))
theorem V_main_arg1 (c : Dev nD) : V m c main_arg1 = m ((c : Thread nD τ).loc main_arg1) :=
  StableHlo.after_of_forall_not_mem (b := Proc.devRef .tc main_arg1) _ _ (List.forall_iff_forall_mem.mp (by no_writer))
theorem V_main_arg2 (c : Dev nD) : V m c main_arg2 = m ((c : Thread nD τ).loc main_arg2) :=
  StableHlo.after_of_forall_not_mem (b := Proc.devRef .tc main_arg2) _ _ (List.forall_iff_forall_mem.mp (by no_writer))
theorem V_main_arg3 (c : Dev nD) : V m c main_arg3 = m ((c : Thread nD τ).loc main_arg3) :=
  StableHlo.after_of_forall_not_mem (b := Proc.devRef .tc main_arg3) _ _ (List.forall_iff_forall_mem.mp (by no_writer))
theorem V_main_arg4 (c : Dev nD) : V m c main_arg4 = m ((c : Thread nD τ).loc main_arg4) :=
  StableHlo.after_of_forall_not_mem (b := Proc.devRef .tc main_arg4) _ _ (List.forall_iff_forall_mem.mp (by no_writer))
theorem V_main_arg5 (c : Dev nD) : V m c main_arg5 = m ((c : Thread nD τ).loc main_arg5) :=
  StableHlo.after_of_forall_not_mem (b := Proc.devRef .tc main_arg5) _ _ (List.forall_iff_forall_mem.mp (by no_writer))
theorem V_main_arg6 (c : Dev nD) : V m c main_arg6 = m ((c : Thread nD τ).loc main_arg6) :=
  StableHlo.after_of_forall_not_mem (b := Proc.devRef .tc main_arg6) _ _ (List.forall_iff_forall_mem.mp (by no_writer))

/-- An argument that is no array of the pipeline ends as launched: the later operations do not write it, the region's
    arrays are other buffers, and the reshapes before the region do not write it. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [tail_keeps_of tail_nw_arg2,
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [tail_keeps_of tail_nw_arg3,
    Pipeline.withArrays_of_ne _ c (V0 m c) _ main_arg3 (by exact (by decide : ∀ w, Pipeline.arrRef spec0 w ≠ main_arg3))]
  exact V_main_arg3 m c
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [tail_keeps_of tail_nw_arg5,
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [tail_keeps_of tail_nw_arg6,
    Pipeline.withArrays_of_ne _ c (V0 m c) _ main_arg6 (by exact (by decide : ∀ w, Pipeline.arrRef spec0 w ≠ main_arg6))]
  exact V_main_arg6 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, whether it was fetched there or not (where it
    was not, the block index has not moved since the fetch), for any proof data over the region-entry arrays whose body
    leaves input blocks in place.  One statement per input window: the window's block shape is read off its literal
    number. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the pipeline library's frame post — every array of the pipeline at what the proof data compute, every
    other unscoped buffer as the later operations leave it — the seven arguments end as launched: the staged ones
    (the input and the two weight matrices) are input arrays, which keep their region-entry contents; the other four
    are buffers nothing writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 4).trans (((dats 0 c).arrAt_in 4 rfl _).trans ((hA c 4).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## What the body leaves in the output buffer -/

abbrev rX : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rRow256 : Rect S1x256 := Rect.unit (s := S1x256) ![0, 0] S1x256.size inb_S1x256_S1x256_0_0
abbrev rW2 : Rect S256x64 := Rect.unit (s := S256x64) ![0, 0] S256x64.size inb_S256x64_S256x64_0_0
abbrev rRow64 : Rect S1x64 := Rect.unit (s := S1x64) ![0, 0] S1x64.size inb_S1x64_S1x64_0_0
abbrev rOut : Rect S2000x64 := Rect.unit (s := S2000x64) ![0, 0] S2000x64.size inb_S2000x64_S2000x64_0_0

/-- The output buffer after the body: its one store, over the whole block, of the body's value of the six input blocks
    loaded whole. -/
def outBlk (x0 : Vec F S2000x512 .f32) (x1 : Vec F S512x256 .f32) (x2 x3 : Vec F S1x256 .f32) (x4 : Vec F S256x64 .f32)
    (x5 : Vec F S1x64 .f32) : Vec F S2000x64 .f32 :=
  View.canon [⟨rOut, k0_pay1 (View.ld x0 rX) (View.ld x1 rW1) (View.ld x2 rRow256) (View.ld x3 rRow256) (View.ld x4 rW2) (View.ld x5 rRow64)⟩]

/-- The one store covers the buffer. -/
theorem coverOut (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

/-! ## The body's triple -/

set_option maxHeartbeats 4000000 in
/-- The body on whole staging buffers — the six inputs' at known contents, the output's at anything — runs to the end
    holding the inputs' as they were and the output's at `outBlk` of them. -/
theorem sound_kernel (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S256x64 .f32) (harg5 : arg5.IsWhole) (arg6 : Memref sig .tc .vmem S1x64 .f32) (harg6 : arg6.IsWhole)
    (arg7 : Memref sig .tc .vmem S2000x64 .f32) (harg7 : arg7.IsWhole)
    (x0 : Vec F S2000x512 .f32) (x1 : Vec F S512x256 .f32) (x2 x3 : Vec F S1x256 .f32) (x4 : Vec F S256x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-! ## The pipeline's proof data -/

/-- The arrays as the region finds them; after the body at grid point t each input's buffer at its block and the
    output's at `outBlk` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any grid point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, and every final state has every array of the pipeline at what
    the proof data compute and every other unscoped buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frame

end
-- ==== Proof.Spec.lean ====
/-
  The two-layer perceptron that both programs evaluate before the graph propagation, entry by entry on the extended
  reals.  Row i of the input meets column k of the first weight matrix in a sum over the 512 features; the first bias is
  added, the result is cut off below at the zero word, and it is scaled by the k-th retain probability clipped into the
  interval between the zero word and the one word.  The hidden row then meets column q of the second weight matrix in a
  sum over the 256 hidden units, and the second bias is added.  The zero and one words are kept as the bit patterns the
  programs print; nothing here evaluates them.
-/
import Idealize.ShloMosaic.Lib.ValueIdx
import Idealize.ShloMosaic.PureOps.Ideal

noncomputable section

namespace Cert.Appnp

open Idealize.ShloMosaic Idealize.ShloMosaic.ValueIdx

/-- The f32 pattern of zero, read as an extended real. -/
abbrev zeroW : EReal := Ideal.ofBits .f32 0x00000000#32
/-- The f32 pattern of one, read as an extended real. -/
abbrev oneW : EReal := Ideal.ofBits .f32 0x3F800000#32

/-- The k-th retain probability clipped into [zero word, one word]: first raised to at least the zero word, then lowered
    to at most the one word. -/
def gate (p : Fin 256 → EReal) (k : Fin 256) : EReal :=
  min oneW (max zeroW (p k))

/-- Hidden unit k of row i: the rectified affine image of the row, scaled by the clipped retain probability. -/
def hiddenAt (x : (⟨2, ![100000, 512]⟩ : Shape).Idx → EReal) (w1 : (⟨2, ![512, 256]⟩ : Shape).Idx → EReal)
    (b1 p : Fin 256 → EReal) (i : Fin 100000) (k : Fin 256) : EReal :=
  max ((∑ j : Fin 512, x (ix2 i j) * w1 (ix2 j k)) + b1 k) zeroW * gate p k

/-- The perceptron's output at row i and column q. -/
def mlpAt (x : (⟨2, ![100000, 512]⟩ : Shape).Idx → EReal) (w1 : (⟨2, ![512, 256]⟩ : Shape).Idx → EReal)
    (b1 p : Fin 256 → EReal) (w2 : (⟨2, ![256, 64]⟩ : Shape).Idx → EReal)
    (b2 : Fin 64 → EReal) (i : Fin 100000) (q : Fin 64) : EReal :=
  (∑ k : Fin 256, hiddenAt x w1 b1 p i k * w2 (ix2 k q)) + b2 q

/-- The perceptron's whole output array. -/
def mlp (x : (⟨2, ![100000, 512]⟩ : Shape).Idx → EReal) (w1 : (⟨2, ![512, 256]⟩ : Shape).Idx → EReal)
    (b1 p : Fin 256 → EReal) (w2 : (⟨2, ![256, 64]⟩ : Shape).Idx → EReal)
    (b2 : Fin 64 → EReal) : (⟨2, ![100000, 64]⟩ : Shape).Idx → EReal :=
  fun i => mlpAt x w1 b1 p w2 b2 (i 0) (i 1)

theorem mlp_ix2 (x : (⟨2, ![100000, 512]⟩ : Shape).Idx → EReal) (w1 : (⟨2, ![512, 256]⟩ : Shape).Idx → EReal)
    (b1 p : Fin 256 → EReal) (w2 : (⟨2, ![256, 64]⟩ : Shape).Idx → EReal)
    (b2 : Fin 64 → EReal) (i : Fin 100000) (q : Fin 64) :
    mlp x w1 b1 p w2 b2 (ix2 i q) = mlpAt x w1 b1 p w2 b2 i q := rfl

end Cert.Appnp

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KVal.lean ====
/-
  What the region leaves in its result array, read on the extended reals: the perceptron of the arguments, entry by
  entry.  The body's value at row r and column q of a block is the second product's sum over the 256 hidden units of
  (the rectified first product plus bias, times the clipped retain probability) times the second weight, plus the second
  bias; the two matrix-unit products into a zero accumulator are plain sums, and a change of float format is the
  identity.  At grid point t the input block is rows 2000·t … 2000·t+1999 of the input, the other five blocks are the
  whole weight matrices and rows, and the output block is rows 2000·t … 2000·t+1999 of the result; the fifty output
  blocks tile the result array (row i lies in block i / 2000).
-/
import proofs.«129289_j4303557231208_1_alg».proof.Proof.FrameKI
import proofs.«129289_j4303557231208_1_alg».proof.Proof.Spec
import proofs.«129289_j4303557231208_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frame Cert.Appnp
open Idealize.ShloMosaic Idealize.ShloMosaic.TcCoe Idealize.ShloMosaic.ValueIdx Idealize.SL.Sem
open Idealize.ShloMosaic.Pipeline (Dat)

/-! ## The body's value at an entry -/

theorem plain1 : Cert.Gcn.IsPlain dot_S2000x512_S512x256_S2000x256_1_0_0_1_n_n := ⟨rfl, rfl, rfl, rfl, rfl, rfl⟩
theorem plain2 : Cert.Gcn.IsPlain dot_S2000x256_S256x64_S2000x64_1_0_0_1_n_n := ⟨rfl, rfl, rfl, rfl, rfl, rfl⟩

/-- A row of 256 broadcast down 2000 rows, read at (r, k), is the row at k. -/
theorem bcastRow256 (y : Vec Ideal S1x256 .f32) (r : Fin 2000) (k : Fin 256) :
    broadcastTo S2000x256 y broadcasts_S1x256_S2000x256 (ix2 r k) = y (ix2 0 k) :=
  broadcastTo_apply y broadcasts_S1x256_S2000x256 (ix2 r k) (ix2 0 k) (fun a => match a with
    | ⟨0, _⟩ => by show (0 : ℕ) = if (1 : ℕ) = 1 then 0 else r.val; rw [if_pos rfl]
    | ⟨1, _⟩ => by show k.val = if (256 : ℕ) = 1 then 0 else k.val; rw [if_neg (by decide)])

/-- A row of 64 broadcast down 2000 rows, read at (r, q), is the row at q. -/
theorem bcastRow64 (y : Vec Ideal S1x64 .f32) (r : Fin 2000) (q : Fin 64) :
    broadcastTo S2000x64 y broadcasts_S1x64_S2000x64 (ix2 r q) = y (ix2 0 q) :=
  broadcastTo_apply y broadcasts_S1x64_S2000x64 (ix2 r q) (ix2 0 q) (fun a => match a with
    | ⟨0, _⟩ => by show (0 : ℕ) = if (1 : ℕ) = 1 then 0 else r.val; rw [if_pos rfl]
    | ⟨1, _⟩ => by show q.val = if (64 : ℕ) = 1 then 0 else q.val; rw [if_neg (by decide)])

/-- Hidden unit k of block row r, from the loaded blocks. -/
def hidBlk (x0 : Vec Ideal S2000x512 .f32) (x1 : Vec Ideal S512x256 .f32) (x2 x3 : Vec Ideal S1x256 .f32) (r : Fin 2000) (k : Fin 256) : EReal :=
  max ((∑ j : Fin 512, x0 (ix2 r j) * x1 (ix2 j k)) + x2 (ix2 0 k)) zeroW * min oneW (max zeroW (x3 (ix2 0 k)))

/-- The body's stored value at row r and column q of the block. -/
theorem pay_at (x0 : Vec Ideal S2000x512 .f32) (x1 : Vec Ideal S512x256 .f32) (x2 x3 : Vec Ideal S1x256 .f32)
    (x4 : Vec Ideal S256x64 .f32) (x5 : Vec Ideal S1x64 .f32) (r : Fin 2000) (q : Fin 64) :
    k0_pay1 (F := Ideal) x0 x1 x2 x3 x4 x5 (ix2 r q)
      = (∑ k : Fin 256, hidBlk x0 x1 x2 x3 r k * x4 (ix2 k q)) + x5 (ix2 0 q) := by
  unfold k0_pay1
  simp only [shapeCast_self]
  rw [addf_apply, Cert.Gcn.matmul_plain_apply _ plain2, bcastRow64]
  refine congrArg (· + x5 (ix2 0 q)) (Finset.sum_congr rfl fun k _ => ?_)
  rw [truncf_apply, truncf_apply, mulf_apply, maximumf_apply, addf_apply, Cert.Gcn.matmul_plain_apply _ plain1,
    bcastRow256, bcastRow256, broadcast_apply, minimumf_apply, broadcast_apply, maximumf_apply, broadcast_apply]
  unfold hidBlk
  refine congrArg (· * x4 (ix2 k q)) ?_
  refine congrArg (fun z => max (z + x2 (ix2 0 k)) zeroW * min oneW (max zeroW (x3 (ix2 0 k)))) ?_
  exact Finset.sum_congr rfl fun j _ => by rw [truncf_apply, truncf_apply]

/-! ## The blocks the body reads and writes, as parts of the arrays -/

variable (m : (ℓ : Loc nD τ sig) → Buf (Elt Ideal) ℓ) (ρ : Dev nD → PrngReg)

theorem hz : (![0, 0] : Fin 2 → Nat) = fun _ => 0 := funext fun a => by fin_cases a <;> rfl

/-- The printed block-index maps over the grid: the input and the result move down the rows with the grid point; the
    weights and the three rows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of the block at grid point t is row 2000·t + r of the array. -/
def rowOf (t : Fin cfg0.N) (r : Fin 2000) : Fin 100000 :=
  ⟨t.val * 2000 + r.val, by have := t.isLt; have := r.isLt; have : cfg0.N = 50 := N_0; omega⟩

/-- The arrays the region reads, as it finds them, at their literal shapes. -/
abbrev xArr (c : Dev nD) : Vec Ideal S100000x512 .f32 := V m c main_arg0
abbrev w1Arr (c : Dev nD) : Vec Ideal S512x256 .f32 := V m c main_arg1
abbrev b1Arr (c : Dev nD) : Vec Ideal S1x256 .f32 := V m c main_v0
abbrev pArr (c : Dev nD) : Vec Ideal S1x256 .f32 := V m c main_v1
abbrev w2Arr (c : Dev nD) : Vec Ideal S256x64 .f32 := V m c main_arg4
abbrev b2Arr (c : Dev nD) : Vec Ideal S1x64 .f32 := V m c main_v2

theorem blk0_at (c : Dev nD) (t : Fin cfg0.N) (r : Fin 2000) (j : Fin 512) :
    iblk m c 0 t (ix2 r j) = xArr m c (ix2 (rowOf t r) j) := by
  obtain ⟨e0, e1, -⟩ := idx_facts t
  show V m c main_arg0 (((cfg0.win 0).blk t).view.emb (ix2 r j)) = V m c main_arg0 (ix2 (rowOf t r) j)
  refine congrArg (V m c main_arg0) (funext fun a => Fin.ext ?_)
  match a with
  | ⟨0, _⟩ => show win0_0.index t (0 : Fin 2) * 2000 + 1 * r.val = t.val * 2000 + r.val; omega
  | ⟨1, _⟩ => show win0_0.index t (1 : Fin 2) * 512 + 1 * j.val = j.val; omega

theorem blk1_at (c : Dev nD) (t : Fin cfg0.N) (j : Fin 512) (k : Fin 256) :
    iblk m c 1 t (ix2 j k) = w1Arr m c (ix2 j k) := by
  obtain ⟨-, -, e0, e1, -⟩ := idx_facts t
  show V m c main_arg1 (((cfg0.win 1).blk t).view.emb (ix2 j k)) = V m c main_arg1 (ix2 j k)
  refine congrArg (V m c main_arg1) (funext fun a => Fin.ext ?_)
  match a with
  | ⟨0, _⟩ => show win0_1.index t (0 : Fin 2) * 512 + 1 * j.val = j.val; omega
  | ⟨1, _⟩ => show win0_1.index t (1 : Fin 2) * 256 + 1 * k.val = k.val; omega

theorem blk2_at (c : Dev nD) (t : Fin cfg0.N) (k : Fin 256) :
    iblk m c 2 t (ix2 0 k) = b1Arr m c (ix2 0 k) := by
  obtain ⟨-, -, -, -, e0, e1, -⟩ := idx_facts t
  show V m c main_v0 (((cfg0.win 2).blk t).view.emb (ix2 0 k)) = V m c main_v0 (ix2 0 k)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

theorem blk3_at (c : Dev nD) (t : Fin cfg0.N) (k : Fin 256) :
    iblk m c 3 t (ix2 0 k) = pArr m c (ix2 0 k) := by
  obtain ⟨-, -, -, -, -, -, e0, e1, -⟩ := idx_facts t
  show V m c main_v1 (((cfg0.win 3).blk t).view.emb (ix2 0 k)) = V m c main_v1 (ix2 0 k)
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

theorem blk4_at (c : Dev nD) (t : Fin cfg0.N) (k : Fin 256) (q : Fin 64) :
    iblk m c 4 t (ix2 k q) = w2Arr m c (ix2 k q) := by
  obtain ⟨-, -, -, -, -, -, -, -, e0, e1, -⟩ := idx_facts t
  show V m c main_arg4 (((cfg0.win 4).blk t).view.emb (ix2 k q)) = V m c main_arg4 (ix2 k q)
  refine congrArg (V m c main_arg4) (funext fun a => Fin.ext ?_)
  match a with
  | ⟨0, _⟩ => show win0_4.index t (0 : Fin 2) * 256 + 1 * k.val = k.val; omega
  | ⟨1, _⟩ => show win0_4.index t (1 : Fin 2) * 64 + 1 * q.val = q.val; omega

theorem blk5_at (c : Dev nD) (t : Fin cfg0.N) (q : Fin 64) :
    iblk m c 5 t (ix2 0 q) = b2Arr m c (ix2 0 q) := by
  obtain ⟨-, -, -, -, -, -, -, -, -, -, e0, e1, -⟩ := idx_facts t
  show V m c main_v2 (((cfg0.win 5).blk t).view.emb (ix2 0 q)) = V m c main_v2 (ix2 0 q)
  refine congrArg (V m c main_v2) (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-! ## The result array -/

/-- The result array the region leaves: the perceptron of the arrays it read, the three rows read by their column. -/
def G (c : Dev nD) : Vec Ideal S100000x64 .f32 :=
  mlp (xArr m c) (w1Arr m c) (fun k => b1Arr m c (ix2 0 k)) (fun k => pArr m c (ix2 0 k)) (w2Arr m c) (fun q => b2Arr m c (ix2 0 q))

/-- The hidden unit computed from the blocks at grid point t is the specification's at the block's row of the array. -/
theorem hidBlk_eq (c : Dev nD) (t : Fin cfg0.N) (r : Fin 2000) (k : Fin 256) :
    hidBlk (iblk m c 0 t) (iblk m c 1 t) (iblk m c 2 t) (iblk m c 3 t) r k
      = hiddenAt (xArr m c) (w1Arr m c) (fun k => b1Arr m c (ix2 0 k)) (fun k => pArr m c (ix2 0 k)) (rowOf t r) k := by
  unfold hidBlk hiddenAt gate
  rw [blk2_at m c t k, blk3_at m c t k]
  refine congrArg (fun z => max (z + b1Arr m c (ix2 0 k)) zeroW * min oneW (max zeroW (pArr m c (ix2 0 k)))) ?_
  exact Finset.sum_congr rfl fun j _ => by rw [blk0_at m c t r j, blk1_at m c t j k]

/-- What grid point t writes back is block t of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold outBlk
  rw [View.canon_unit_zero hz]
  simp only [View.ld_unit_zero (S := S2000x512) hz, View.ld_unit_zero (S := S512x256) hz, View.ld_unit_zero (S := S1x256) hz,
    View.ld_unit_zero (S := S256x64) hz, View.ld_unit_zero (S := S1x64) hz]
  funext y
  obtain ⟨r, q, rfl⟩ : ∃ (r : Fin 2000) (q : Fin 64), y = ix2 r q := ⟨y 0, y 1, eq_ix2 y⟩
  refine (pay_at (iblk m c 0 t) (iblk m c 1 t) (iblk m c 2 t) (iblk m c 3 t) (iblk m c 4 t) (iblk m c 5 t) r q).trans ?_
  obtain ⟨-, -, -, -, -, -, -, -, -, -, -, -, e0, e1⟩ := idx_facts t
  have hi : ((cfg0.win 6).blk t).view.emb (ix2 r q) = ix2 (rowOf t r) q := funext fun a => Fin.ext (by
    match a with
    | ⟨0, _⟩ => show win0_6.index t (0 : Fin 2) * 2000 + 1 * r.val = t.val * 2000 + r.val; omega
    | ⟨1, _⟩ => show win0_6.index t (1 : Fin 2) * 64 + 1 * q.val = q.val; omega)
  show _ = G m c (((cfg0.win 6).blk t).view.emb (ix2 r q))
  rw [hi]
  unfold G
  rw [mlp_ix2]
  unfold mlpAt
  rw [blk5_at m c t q]
  refine congrArg (· + b2Arr m c (ix2 0 q)) (Finset.sum_congr rfl fun k _ => ?_)
  rw [hidBlk_eq m c t r k, blk4_at m c t k q]

/-- An index of the result array is in grid point t's block iff each coordinate is in the block's range on its axis. -/
theorem mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v3).slice (win0_6.rect t)).set ↔ _
  rw [View.set_slice_whole, Rect.mem_set_unit]
  exact Iff.rfl

/-- Every entry of the result array lies in the block of the grid point its row divided by 2000 names. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  let t : Fin cfg0.N := ⟨(i 0).val / 2000, by omega⟩
  obtain ⟨-, -, -, -, -, -, -, -, -, -, -, -, e0, e1⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- The result array after the region is `G`. -/
theorem final (c : Dev nD) : (dats m 0 c).arrAt 6 cfg0.N = G m c :=
  (dats m 0 c).arrAt_eq_of_cover 6 (G m c) (fun t _ => flushed_eq m c t) cover

/-! ## The arrays the region read, from the arguments -/

/-- The three rows the region reads are the reshapes of the two bias vectors and the retain probabilities. -/
theorem b1Arr_eq (c : Dev nD) :
    (V m c main_v0 : S1x256.Idx → EReal) = shapeCast S1x256 (m ((c : Thread nD τ).loc main_arg2)) shapeCasts_S256_S1x256 := by
  show StableHlo.after hostOps0 (fun b => m (c, b)) (Proc.devRef .tc main_v0) = _
  after_results; rfl
theorem pArr_eq (c : Dev nD) :
    (V m c main_v1 : S1x256.Idx → EReal) = shapeCast S1x256 (m ((c : Thread nD τ).loc main_arg3)) shapeCasts_S256_S1x256 := by
  show StableHlo.after hostOps0 (fun b => m (c, b)) (Proc.devRef .tc main_v1) = _
  after_results; rfl
theorem b2Arr_eq (c : Dev nD) :
    (V m c main_v2 : S1x64.Idx → EReal) = shapeCast S1x64 (m ((c : Thread nD τ).loc main_arg5)) shapeCasts_S64_S1x64 := by
  show StableHlo.after hostOps0 (fun b => m (c, b)) (Proc.devRef .tc main_v2) = _
  after_results; rfl

/-- A vector reshaped into one row, read at column k, is the vector at k. -/
theorem row_at {n : ℕ} (x : (⟨1, ![n]⟩ : Shape).Idx → EReal) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_one, Shape.rowMajor_val_two]
    show k.val = 0 * n + k.val
    omega)

/-- The result array the region leaves is the perceptron of the arguments as launched. -/
theorem G_args (c : Dev nD) :
    G m c = mlp (m ((c : Thread nD τ).loc main_arg0)) (m ((c : Thread nD τ).loc main_arg1))
      (fun k => m ((c : Thread nD τ).loc main_arg2) (ix1 k)) (fun k => m ((c : Thread nD τ).loc main_arg3) (ix1 k))
      (m ((c : Thread nD τ).loc main_arg4)) (fun q => m ((c : Thread nD τ).loc main_arg5) (ix1 q)) := by
  have hb1 : (fun k : Fin 256 => V m c main_v0 (ix2 0 k)) = fun k => m ((c : Thread nD τ).loc main_arg2) (ix1 k) :=
    funext fun k => by rw [b1Arr_eq m c]; exact row_at _ _ k
  have hp : (fun k : Fin 256 => V m c main_v1 (ix2 0 k)) = fun k => m ((c : Thread nD τ).loc main_arg3) (ix1 k) :=
    funext fun k => by rw [pArr_eq m c]; exact row_at _ _ k
  have hb2 : (fun q : Fin 64 => V m c main_v2 (ix2 0 q)) = fun q => m ((c : Thread nD τ).loc main_arg5) (ix1 q) :=
    funext fun q => by rw [b2Arr_eq m c]; exact row_at _ _ q
  show mlp (V m c main_arg0) (V m c main_arg1) (fun k : Fin 256 => V m c main_v0 (ix2 0 k)) (fun k : Fin 256 => V m c main_v1 (ix2 0 k))
    (V m c main_arg4) (fun q : Fin 64 => V m c main_v2 (ix2 0 q)) = _
  rw [hb1, hp, hb2, V_main_arg0 m c, V_main_arg1 m c, V_main_arg4 m c]

/-! ## The run, with the result named -/

/-- Every weakly fair execution terminates with the program's result buffer at what the later operations compute from
    the region's arrays, and the seven arguments as launched. -/
theorem run_value : θ_run defs (onTc (τ := τ) (main (F := Ideal))) ⟨m, fun _ => 0, ρ⟩ (fun r => ∀ c : Dev nD,
      r.2.mem ((c.tc : Thread nD τ).loc main_v70) = Pipeline.afterTail₀ cfgs (dats m) 0 (V0 m) tailOps c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (h c).2 main_v70 (Pipeline.mem_restRefs_of main_v70 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-- What the later operations start from: the region's result array is `G`, the edge index array is as launched. -/
theorem tail_in_v3 (c : Dev nD) :
    Pipeline.withArrays (cfgs 0).spec c (V0 m c) (fun w => (dats m 0 c).arrAt w (cfgs 0).N) (Proc.devRef .tc main_v3) = G m c :=
  (Pipeline.withArrays_arr spec0 launch0.win.arr_inj c _ _ 6).trans (final m c)
theorem tail_in_arg6 (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans (V_main_arg6 m c)

end Cert.KernelIdeal.Val

end
-- ==== Proof.RefMlp.lean ====
/-
  The reference's perceptron stage, read entry by entry on the extended reals, is the perceptron of the specification.
  The reference computes the first product on the host, adds the bias row broadcast down the rows, takes the maximum
  with the zero word, multiplies by the retain probabilities clipped between the zero and one words and broadcast down
  the rows, computes the second product, and adds the second bias row.  Each host product at one entry is the plain sum
  over its contracted coordinate; every broadcast reads its operand at the column coordinate.
-/
import proofs.«129289_j4303557231208_1_alg».proof.Proof.RefRead
import proofs.«129289_j4303557231208_1_alg».proof.Proof.Spec
import Idealize.ShloMosaic.Lib.ValueIdx
import Idealize.ShloMosaic.PureOps.Ideal.Laws

noncomputable section

namespace Cert.ReferenceIdeal.Mlp

open Cert.ReferenceIdeal Cert.ReferenceIdeal.Gen Cert.ReferenceIdeal.ReadP Cert.Appnp
open Idealize.ShloMosaic Idealize.ShloMosaic.ValueIdx

/-! ## The index maps of the stages, at coordinates -/

theorem lidx10 (r : Fin 100000) (q : Fin 64) (k : Fin 256) : lidx_main_v10 (ix2 r q) k = ix2 r k :=
  funext fun a => Fin.ext (by match a with | ⟨0, _⟩ => rfl | ⟨1, _⟩ => rfl)
theorem ridx10 (r : Fin 100000) (q : Fin 64) (k : Fin 256) : ridx_main_v10 (ix2 r q) k = ix2 k q :=
  funext fun a => Fin.ext (by match a with | ⟨0, _⟩ => rfl | ⟨1, _⟩ => rfl)
theorem lidx0 (r : Fin 100000) (k : Fin 256) (j : Fin 512) : lidx_main_v0 (ix2 r k) j = ix2 r j :=
  funext fun a => Fin.ext (by match a with | ⟨0, _⟩ => rfl | ⟨1, _⟩ => rfl)
theorem ridx0 (r : Fin 100000) (k : Fin 256) (j : Fin 512) : ridx_main_v0 (ix2 r k) j = ix2 j k :=
  funext fun a => Fin.ext (by match a with | ⟨0, _⟩ => rfl | ⟨1, _⟩ => rfl)
theorem idxB1 (r : Fin 100000) (k : Fin 256) : idx_main_v1 (idx_main_v2 (ix2 r k)) = ix1 k :=
  funext fun a => Fin.ext (by match a with | ⟨0, _⟩ => rfl)
theorem idxP (r : Fin 100000) (k : Fin 256) : idx_main_v7 (idx_main_v8 (ix2 r k)) = ix1 k :=
  funext fun a => Fin.ext (by match a with | ⟨0, _⟩ => rfl)
theorem idxB2 (r : Fin 100000) (q : Fin 64) : idx_main_v11 (idx_main_v12 (ix2 r q)) = ix1 q :=
  funext fun a => Fin.ext (by match a with | ⟨0, _⟩ => rfl)

/-- The reference's thirteenth stage — its perceptron — is the specification's, the three vectors read by their one
    coordinate. -/
theorem stage_eq_mlp (x0 : (⟨S100000x512, .f32⟩ : BufTy).Contents (Elt Ideal)) (x1 : (⟨S512x256, .f32⟩ : BufTy).Contents (Elt Ideal))
    (x2 x3 : (⟨S256, .f32⟩ : BufTy).Contents (Elt Ideal)) (x4 : (⟨S256x64, .f32⟩ : BufTy).Contents (Elt Ideal))
    (x5 : (⟨S64, .f32⟩ : BufTy).Contents (Elt Ideal)) :
    val_main_v13 (F := Ideal) x0 x1 x2 x3 x4 x5
      = mlp x0 x1 (fun k => x2 (ix1 k)) (fun k => x3 (ix1 k)) x4 (fun q => x5 (ix1 q)) := by
  funext i
  obtain ⟨r, q, rfl⟩ : ∃ (r : Fin 100000) (q : Fin 64), i = ix2 r q := ⟨i 0, i 1, eq_ix2 i⟩
  simp only [mlp_ix2, mlpAt, hiddenAt, gate, val_main_v13_apply, val_main_v10_apply, val_main_v12_apply, val_main_v11_apply,
    val_main_v9_apply, val_main_v5_apply, val_main_v3_apply, val_main_v0_apply, val_main_v2_apply, val_main_v1_apply,
    val_main_v4_apply, val_main_cst_apply, val_main_v8_apply, val_main_v7_apply, val_main_v6_apply,
    val_main_call0_v4_apply, val_main_call0_v3_apply, val_main_cst_1_apply, val_main_call0_v2_apply,
    val_main_call0_v1_apply, val_main_call0_v0_apply, val_main_cst_0_apply,
    lidx10, ridx10, lidx0, ridx0, idxB1, idxP, idxB2,
    Ideal.addf_def, Ideal.mulf_def, Ideal.maximumf_def, Ideal.minimumf_def, Ideal.ofBits_def]

end Cert.ReferenceIdeal.Mlp

end
-- ==== Proof.Bridge.lean ====
/-
  The two programs end with the same result.  After its perceptron stage each program applies the same eighty-eight host
  operations — the degree count by a scatter-add of ones, the inverse square root of the degree where it is positive,
  the edge weights by two gathers, and two propagation steps, each a gather of rows, a scaling by the edge weights, a
  scatter-add into the destination rows and a convex combination with the perceptron's output — to the edge index
  array and to the perceptron's output.  So the two results are the same function of those two arrays, whatever the
  float values are; and the two perceptron outputs are the same array on the extended reals (the region's result array
  on one side, the reference's thirteenth stage on the other, both the specification's perceptron of the arguments).
  The later operations are cut after the seventh — the two index vectors, each the concatenation of a row of the edge
  index array with the node numbers — so that the remaining eighty-one read those two vectors and the perceptron's
  output as given arrays.
-/
import proofs.«129289_j4303557231208_1_alg».proof.Proof.KVal
import proofs.«129289_j4303557231208_1_alg».proof.Proof.RefMlp
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo
open Cert.Appnp

/-! ## The operations after the perceptron, for any float values -/

section Tail

variable {F : FTy → Type} [FloatOps F]

/-- The first seven of the later operations of the program with the region (they build the two index vectors), -/
abbrev kPre : List (HloOp Cert.KernelIdeal.τ Cert.KernelIdeal.sig (Elt F)) := (Cert.KernelIdeal.Gen.hostOps1 (F := F)).take 7
/-- and the rest of that stretch. -/
abbrev kMid : List (HloOp Cert.KernelIdeal.τ Cert.KernelIdeal.sig (Elt F)) := (Cert.KernelIdeal.Gen.hostOps1 (F := F)).drop 7
/-- The reference's operations up to its perceptron's output: the first twenty-two; -/
abbrev rHead : List (HloOp Cert.ReferenceIdeal.τ Cert.ReferenceIdeal.sig (Elt F)) := (Cert.ReferenceIdeal.ValueP.ops (F := F)).take 22
/-- the seven that build its two index vectors; -/
abbrev rPre : List (HloOp Cert.ReferenceIdeal.τ Cert.ReferenceIdeal.sig (Elt F)) := ((Cert.ReferenceIdeal.ValueP.ops (F := F)).drop 22).take 7
/-- and the eighty-one after them. -/
abbrev rPost : List (HloOp Cert.ReferenceIdeal.τ Cert.ReferenceIdeal.sig (Elt F)) := ((Cert.ReferenceIdeal.ValueP.ops (F := F)).drop 22).drop 7

theorem k_after (W : Valuation Cert.KernelIdeal.τ Cert.KernelIdeal.sig (Elt F)) :
    StableHlo.after (List.flatten Cert.KernelIdeal.Frame.tailOps) W
      = StableHlo.after Cert.KernelIdeal.Gen.hostOps1_2 (StableHlo.after Cert.KernelIdeal.Gen.hostOps1_1 (StableHlo.after kMid (StableHlo.after kPre W))) := by
  rw [← StableHlo.after_append kPre kMid, List.take_append_drop, ← StableHlo.after_append, ← StableHlo.after_append]
  simp only [Cert.KernelIdeal.Frame.tailOps, List.flatten_cons, List.flatten_nil, List.append_nil, List.append_assoc]

theorem r_after (W' : Valuation Cert.ReferenceIdeal.τ Cert.ReferenceIdeal.sig (Elt F)) :
    StableHlo.after Cert.ReferenceIdeal.ValueP.ops W' = StableHlo.after rPost (StableHlo.after rPre (StableHlo.after rHead W')) := by
  rw [← StableHlo.after_append rPre rPost, List.take_append_drop, ← StableHlo.after_append, List.take_append_drop]

set_option maxRecDepth 65536 in
set_option maxHeartbeats 4000000 in
/-- The two index vectors: from buffer contents that agree on the edge index array the two programs build the same. -/
theorem pre_agree (W : Valuation Cert.KernelIdeal.τ Cert.KernelIdeal.sig (Elt F)) (W' : Valuation Cert.ReferenceIdeal.τ Cert.ReferenceIdeal.sig (Elt F))
    (he : W' (Proc.devRef .tc Cert.ReferenceIdeal.main_arg6) = W (Proc.devRef .tc Cert.KernelIdeal.main_arg6)) :
    StableHlo.after rPre W' (Proc.devRef .tc Cert.ReferenceIdeal.main_v17) = StableHlo.after kPre W (Proc.devRef .tc Cert.KernelIdeal.main_v7)
    ∧ StableHlo.after rPre W' (Proc.devRef .tc Cert.ReferenceIdeal.main_v20) = StableHlo.after kPre W (Proc.devRef .tc Cert.KernelIdeal.main_v10) := by
  simp only [rPre, kPre, Cert.ReferenceIdeal.ValueP.ops, Cert.KernelIdeal.Gen.hostOps1, List.take, List.drop]
  constructor
  · after_results
    rw [he]
    rfl
  · after_results
    rw [he]
    rfl

set_option maxRecDepth 65536 in
set_option maxHeartbeats 4000000 in
/-- Those seven operations leave the perceptron's output where it was. -/
theorem pre_keeps (W : Valuation Cert.KernelIdeal.τ Cert.KernelIdeal.sig (Elt F)) (W' : Valuation Cert.ReferenceIdeal.τ Cert.ReferenceIdeal.sig (Elt F)) :
    StableHlo.after rPre W' (Proc.devRef .tc Cert.ReferenceIdeal.main_v13) = W' (Proc.devRef .tc Cert.ReferenceIdeal.main_v13)
    ∧ StableHlo.after kPre W (Proc.devRef .tc Cert.KernelIdeal.main_v3) = W (Proc.devRef .tc Cert.KernelIdeal.main_v3) := by
  simp only [rPre, kPre, Cert.ReferenceIdeal.ValueP.ops, Cert.KernelIdeal.Gen.hostOps1, List.take, List.drop]
  constructor
  · after_results
  · after_results

set_option maxRecDepth 65536 in
set_option maxHeartbeats 40000000 in
/-- From buffer contents that agree on the perceptron's output and on the two index vectors, the reference's remaining
    operations leave in its result buffer what the other program's leave in its own: they are the same operations in
    the same order, each reading the results of the ones before it. -/
theorem post_agree (W : Valuation Cert.KernelIdeal.τ Cert.KernelIdeal.sig (Elt F)) (W' : Valuation Cert.ReferenceIdeal.τ Cert.ReferenceIdeal.sig (Elt F))
    (hv : W' (Proc.devRef .tc Cert.ReferenceIdeal.main_v13) = W (Proc.devRef .tc Cert.KernelIdeal.main_v3))
    (h7 : W' (Proc.devRef .tc Cert.ReferenceIdeal.main_v17) = W (Proc.devRef .tc Cert.KernelIdeal.main_v7))
    (h10 : W' (Proc.devRef .tc Cert.ReferenceIdeal.main_v20) = W (Proc.devRef .tc Cert.KernelIdeal.main_v10)) :
    StableHlo.after rPost W' (Proc.devRef .tc Cert.ReferenceIdeal.main_v80)
      = StableHlo.after Cert.KernelIdeal.Gen.hostOps1_2 (StableHlo.after Cert.KernelIdeal.Gen.hostOps1_1 (StableHlo.after kMid W)) (Proc.devRef .tc Cert.KernelIdeal.main_v70) := by
  simp only [rPost, kMid, Cert.ReferenceIdeal.ValueP.ops, Cert.KernelIdeal.Gen.hostOps1, Cert.KernelIdeal.Gen.hostOps1_1, Cert.KernelIdeal.Gen.hostOps1_2, List.take, List.drop]
  after_results_simp
  rw [hv, h7, h10]
  rfl

set_option maxRecDepth 65536 in
set_option maxHeartbeats 4000000 in
/-- The reference's first twenty-two operations leave in the thirteenth buffer the perceptron stage of the arguments. -/
theorem head_v13 (m' : (ℓ : Loc Cert.ReferenceIdeal.nD Cert.ReferenceIdeal.τ Cert.ReferenceIdeal.sig) → Buf (Elt F) ℓ) (c : Dev Cert.ReferenceIdeal.nD) :
    StableHlo.after rHead (launchContents m' c) (Proc.devRef .tc Cert.ReferenceIdeal.main_v13)
      = Cert.ReferenceIdeal.ReadP.val_main_v13 (F := F) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  simp only [rHead, Cert.ReferenceIdeal.ValueP.ops, List.take]
  after_results_simp
  rfl

set_option maxRecDepth 65536 in
set_option maxHeartbeats 4000000 in
/-- They leave the edge index array as launched. -/
theorem head_arg6 (m' : (ℓ : Loc Cert.ReferenceIdeal.nD Cert.ReferenceIdeal.τ Cert.ReferenceIdeal.sig) → Buf (Elt F) ℓ) (c : Dev Cert.ReferenceIdeal.nD) :
    StableHlo.after rHead (launchContents m' c) (Proc.devRef .tc Cert.ReferenceIdeal.main_arg6)
      = m' ((c.tc : Thread Cert.ReferenceIdeal.nD Cert.ReferenceIdeal.τ).loc Cert.ReferenceIdeal.main_arg6) := by
  simp only [rHead, Cert.ReferenceIdeal.ValueP.ops, List.take]
  after_results_simp <;> rfl

set_option maxRecDepth 65536 in
set_option maxHeartbeats 40000000 in
/-- The reference's result, as its run states it, is what its operations leave in the result buffer. -/
theorem res_eq_after (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v80 (F := F) m' c
      = StableHlo.after Cert.ReferenceIdeal.ValueP.ops (launchContents m' c) (Proc.devRef .tc Cert.ReferenceIdeal.main_v80) :=
  Eq.symm (by after_results_simp <;> rfl <;> (unfold Cert.ReferenceIdeal.ValueP.res_main_v80; rfl))

end Tail

/-! ## The two results, on the extended reals -/

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the seven arguments, the reference's result is what the program with the region ends
    holding in its result buffer. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ValueP.res_main_v80 (F := Ideal) m' c
      = Pipeline.afterTail₀ Cert.KernelIdeal.cfgs (Cert.KernelIdeal.Frame.dats m) 0 (Cert.KernelIdeal.Frame.V0 m) Cert.KernelIdeal.Frame.tailOps c Cert.KernelIdeal.main_v70 := by
  rw [res_eq_after, r_after]
  unfold Pipeline.afterTail₀
  rw [k_after]
  have he : StableHlo.after rHead (launchContents m' c) (Proc.devRef .tc Cert.ReferenceIdeal.main_arg6)
      = Pipeline.withArrays (Cert.KernelIdeal.cfgs 0).spec c (Cert.KernelIdeal.Frame.V0 m c) (fun w => (Cert.KernelIdeal.Frame.dats m 0 c).arrAt w (Cert.KernelIdeal.cfgs 0).N)
          (Proc.devRef .tc Cert.KernelIdeal.main_arg6) := by
    rw [head_arg6, Cert.KernelIdeal.Val.tail_in_arg6, h6]
  have hv : StableHlo.after rHead (launchContents m' c) (Proc.devRef .tc Cert.ReferenceIdeal.main_v13)
      = Pipeline.withArrays (Cert.KernelIdeal.cfgs 0).spec c (Cert.KernelIdeal.Frame.V0 m c) (fun w => (Cert.KernelIdeal.Frame.dats m 0 c).arrAt w (Cert.KernelIdeal.cfgs 0).N)
          (Proc.devRef .tc Cert.KernelIdeal.main_v3) := by
    rw [head_v13, Cert.ReferenceIdeal.Mlp.stage_eq_mlp, Cert.KernelIdeal.Val.tail_in_v3, Cert.KernelIdeal.Val.G_args, h0, h1, h2, h3, h4, h5]
  obtain ⟨p7, p10⟩ := pre_agree _ _ he
  obtain ⟨k13, k3⟩ := pre_keeps
    (Pipeline.withArrays (Cert.KernelIdeal.cfgs 0).spec c (Cert.KernelIdeal.Frame.V0 m c) (fun w => (Cert.KernelIdeal.Frame.dats m 0 c).arrAt w (Cert.KernelIdeal.cfgs 0).N))
    (StableHlo.after rHead (launchContents m' c))
  exact post_agree _ _ (k13.trans (hv.trans k3.symm)) p7 p10

end Values

end Cert.Bridge

end
-- ==== Proof.lean ====
/-
  The certificate's claim: both printed forms of the program and the reference run to the end without a fault and leave
  their arguments unchanged; the idealized program is the printed one read on the extended reals (the ideal pass
  rewrote nothing); and, from memories that agree on the seven arguments, the idealized program and the idealized
  reference end with the same result.  The program computes a two-layer perceptron in one pipelined region and then,
  on the host, two steps of normalized-adjacency propagation; the reference computes the same perceptron and the same
  propagation on the host.  The perceptrons agree entry by entry on the extended reals (two plain sums of products
  with a rectification and a clipped scale between them; a change of float format is the identity there), and the
  propagation is the same chain of operations applied to the same two arrays.
-/
import proofs.«129289_j4303557231208_1_alg».proof.Defs
import proofs.«129289_j4303557231208_1_alg».proof.Proof.Gen.Kernel
import proofs.«129289_j4303557231208_1_alg».proof.Proof.Gen.KernelIdeal
import proofs.«129289_j4303557231208_1_alg».proof.Proof.Gen.ReferenceIdeal
import proofs.«129289_j4303557231208_1_alg».proof.Proof.Gen.Pre_finite_inputs
import proofs.«129289_j4303557231208_1_alg».proof.Proof.FrameK
import proofs.«129289_j4303557231208_1_alg».proof.Proof.FrameKI
import proofs.«129289_j4303557231208_1_alg».proof.Proof.KVal
import proofs.«129289_j4303557231208_1_alg».proof.Proof.RefRun
import proofs.«129289_j4303557231208_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Frame.frame m ρ

/-- So does the program read on the extended reals. -/
theorem frame_ki : Cert.frame_KernelIdeal := fun m ρ _ => Cert.KernelIdeal.Frame.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with the same result: the reference's result term is what the program with the
    region leaves in its result buffer, the arguments being the same. -/
theorem algebraic : Cert.algebraic_KernelIdeal_ReferenceIdeal := by
  intro m ρ m' ρ' _ hagree
  refine ⟨fun c => Pipeline.afterTail₀ Cert.KernelIdeal.cfgs (Cert.KernelIdeal.Frame.dats m) 0 (Cert.KernelIdeal.Frame.V0 m)
    Cert.KernelIdeal.Frame.tailOps c Cert.KernelIdeal.main_v70, Cert.KernelIdeal.Val.run_value m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m m' c (hagree c).1 (hagree c).2.1 (hagree c).2.2.1 (hagree c).2.2.2.1 (hagree c).2.2.2.2.1
    (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
